-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64x64 .f32) (main_arg7 : FVec F S64 .f32) (main_arg8 : FVec F S64x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x1 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S4000x64 : Shape := ⟨2, ![4000, 64]⟩
abbrev S4000x1 : Shape := ⟨2, ![4000, 1]⟩
abbrev S1x1 : Shape := ⟨2, ![1, 1]⟩
abbrev S100000 : Shape := ⟨1, ![100000]⟩

abbrev nBuf : Space → Nat
  | .hbm => 52
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000x1, .f32⟩
  | .hbm, ⟨16, _⟩ => ⟨S_, .f32⟩
  | .hbm, ⟨17, _⟩ => ⟨S100000x1, .f32⟩
  | .hbm, ⟨18, _⟩ => ⟨S1600000x1, .i32⟩
  | .hbm, ⟨19, _⟩ => ⟨S100000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S1x64, .f32⟩
  | .hbm, ⟨49, _⟩ => ⟨S1x1, .f32⟩
  | .hbm, ⟨50, _⟩ => ⟨S100000x1, .f32⟩
  | .hbm, ⟨51, _⟩ => ⟨S100000, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x64, .f32⟩
  | .local _ .vmem, ⟨5, _⟩ => ⟨S4000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x1, .f32⟩
  | .local _ .vmem, ⟨14, _⟩ => ⟨S4000x1, .f32⟩
  | .local _ .vmem, ⟨15, _⟩ => ⟨S4000x64, .f32⟩
  | .local _ .vmem, ⟨16, _⟩ => ⟨S4000x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S64x1, .f32⟩
  | .local _ .vmem, ⟨21, _⟩ => ⟨S1x1, .f32⟩
  | .local _ .vmem, ⟨22, _⟩ => ⟨S4000x1, .f32⟩
  | .local _ .vmem, ⟨23, _⟩ => ⟨S4000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x64 : S_.BroadcastsInDim S100000x64 (![] : Fin 0 → Fin S100000x64.rank)
  shapeCasts_S64_S1x64 : S64.ShapeCasts S1x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  shapeCasts_S100000x1_S100000 : S100000x1.ShapeCasts S100000
  scatter_S100000x1_S1600000x1_S1600000x1_1_0_0_1_wf : ScatterDims.WF S100000x1 S1600000x1 S1600000x1 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x1.size a ≤ S100000x1.size a
  hwx1_8 : ∀ i : grid1.Coords, EltTy.bits .f32 = 32 ∨ (Rect.block (s := S100000x1) S4000x1.size (cc1_transform_8 i) (hinb1_8 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_v17) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S4000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S1x1 : Shape := ⟨2, ![1, 1]⟩
abbrev S100000 : Shape := ⟨1, ![100000]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S_, .f32⟩
  | .hbm, ⟨61, _⟩ => ⟨S1600000x1, .f32⟩
  | .hbm, ⟨62, _⟩ => ⟨S_, .f32⟩
  | .hbm, ⟨63, _⟩ => ⟨S100000x1, .f32⟩
  | .hbm, ⟨64, _⟩ => ⟨S1600000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000x64, .f32⟩
  | .hbm, ⟨79, _⟩ => ⟨S100000x64, .f32⟩
  | .hbm, ⟨80, _⟩ => ⟨S100000x1, .f32⟩
  | .hbm, ⟨81, _⟩ => ⟨S1x1, .f32⟩
  | .hbm, ⟨82, _⟩ => ⟨S100000x1, .f32⟩
  | .hbm, ⟨83, _⟩ => ⟨S100000x1, .f32⟩
  | .hbm, ⟨84, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_cst : Ref sig .tc := ⟨.hbm, 77, rfl⟩
abbrev main_call1_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.HostChain.lean ====
/-
  The host operations around the two pallas_calls, read buffer by buffer.

  Before the first call the host slices the edge list into its source and destination columns, counts each node's
  incoming edges (a scatter-add of ones over the destinations), gathers the source rows of the features and
  scatter-adds them over the destinations, and lays the bias out as a row. Between the calls it does the same gather
  and scatter-add on the first call's result. After the second call it reshapes the one-column result to a vector.
  The reference applies the very same operations in the same order to the same arguments, so each buffer a call is
  entered with IS the reference's value of that operation, taken as a function of the launch arguments; the gathers
  and scatter-adds are never opened. Two places differ in spelling only: the kernel's program reshapes each bias where
  the reference broadcasts it, entry by entry the same array.
-/
import proofs.«133992_j36507222016452_1_alg».proof.Proof.Gen.KernelIdeal.Frame
import proofs.«133992_j36507222016452_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.Sage

open Cert.KernelIdeal Cert.KernelIdeal.Gen

variable (m : (ℓ : Loc nD τ sig) → Buf (Elt Ideal) ℓ) (ρ : Dev nD → PrngReg)

/-- The launch arguments, each by its literal type. -/
abbrev x0 (c : Dev nD) : Vec Ideal S100000x64 .f32 := m ((c : Thread nD τ).loc main_arg0)
abbrev x1 (c : Dev nD) : (⟨S2x1600000, .i32⟩ : BufTy).Contents (Elt Ideal) := m ((c : Thread nD τ).loc main_arg1)
abbrev x2 (c : Dev nD) : Vec Ideal S64x64 .f32 := m ((c : Thread nD τ).loc main_arg2)
abbrev x3 (c : Dev nD) : Vec Ideal S64x64 .f32 := m ((c : Thread nD τ).loc main_arg3)
abbrev x4 (c : Dev nD) : Vec Ideal S64 .f32 := m ((c : Thread nD τ).loc main_arg4)
abbrev x5 (c : Dev nD) : Vec Ideal S64x64 .f32 := m ((c : Thread nD τ).loc main_arg5)
abbrev x6 (c : Dev nD) : Vec Ideal S64x64 .f32 := m ((c : Thread nD τ).loc main_arg6)
abbrev x7 (c : Dev nD) : Vec Ideal S64 .f32 := m ((c : Thread nD τ).loc main_arg7)
abbrev x8 (c : Dev nD) : Vec Ideal S64x1 .f32 := m ((c : Thread nD τ).loc main_arg8)
abbrev x9 (c : Dev nD) : Vec Ideal S1 .f32 := m ((c : Thread nD τ).loc main_arg9)

/-! ## A bias as a row: the kernel reshapes it, the reference broadcasts it; entry by entry the same -/

theorem bias_row_eq (b : Vec Ideal S64 .f32) :
    (shapeCast S1x64 b shapeCasts_S64_S1x64 : Vec Ideal S1x64 .f32) = Cert.ReferenceIdeal.Read.val_main_v25 (F := Ideal) b := by
  funext i
  rw [Cert.ReferenceIdeal.Read.val_main_v25_apply]
  exact shapeCast_apply b shapeCasts_S64_S1x64 i (Cert.ReferenceIdeal.Read.idx_main_v25 i)
    (by rewrite [Shape.rowMajor_val_two, Shape.rowMajor_val_one]
        have h0 : (i 0).val < 1 := (i 0).isLt
        show (i 1).val = (i 0).val * 64 + (i 1).val; omega)

theorem bias_row_eq2 (b : Vec Ideal S64 .f32) :
    (shapeCast S1x64 b shapeCasts_S64_S1x64 : Vec Ideal S1x64 .f32) = Cert.ReferenceIdeal.Read.val_main_v50 (F := Ideal) b := by
  funext i
  rw [Cert.ReferenceIdeal.Read.val_main_v50_apply]
  exact shapeCast_apply b shapeCasts_S64_S1x64 i (Cert.ReferenceIdeal.Read.idx_main_v50 i)
    (by rewrite [Shape.rowMajor_val_two, Shape.rowMajor_val_one]
        have h0 : (i 0).val < 1 := (i 0).isLt
        show (i 1).val = (i 0).val * 64 + (i 1).val; omega)

theorem bias_one_eq (b : Vec Ideal S1 .f32) :
    (shapeCast S1x1 b shapeCasts_S1_S1x1 : Vec Ideal S1x1 .f32) = Cert.ReferenceIdeal.Read.val_main_v55 (F := Ideal) b := by
  funext i
  rw [Cert.ReferenceIdeal.Read.val_main_v55_apply]
  exact shapeCast_apply b shapeCasts_S1_S1x1 i (Cert.ReferenceIdeal.Read.idx_main_v55 i)
    (by rewrite [Shape.rowMajor_val_two, Shape.rowMajor_val_one]
        have h0 : (i 0).val < 1 := (i 0).isLt
        have h1 : (i 1).val < 1 := (i 1).isLt
        show 0 = (i 0).val * 1 + (i 1).val; omega)

/-! ## What the first region is entered with -/

theorem entry0_cnt (c : Dev nD) : V1 (F := Ideal) m ρ c main_v7 = Cert.ReferenceIdeal.Read.val_main_v17 (F := Ideal) (x1 m c) := by
  show StableHlo.after hostOps0 (W0 m ρ c) (Proc.devRef .tc main_v7) = _
  dsimp only [hostOps0]
  after_results
  unfold Cert.ReferenceIdeal.Read.val_main_v17 Cert.ReferenceIdeal.Read.val_main_v16 Cert.ReferenceIdeal.Read.val_main_v15 Cert.ReferenceIdeal.Read.val_main_v14 Cert.ReferenceIdeal.Read.val_main_cst_1 Cert.ReferenceIdeal.Read.val_main_cst_2 Cert.ReferenceIdeal.Read.val_main_v3 Cert.ReferenceIdeal.Read.val_main_v2
  rfl

set_option maxHeartbeats 4000000 in
theorem entry0_sums (c : Dev nD) : V1 (F := Ideal) m ρ c main_v17 = Cert.ReferenceIdeal.Read.val_main_v13 (F := Ideal) (x0 m c) (x1 m c) := by
  show StableHlo.after hostOps0 (W0 m ρ c) (Proc.devRef .tc main_v17) = _
  dsimp only [hostOps0]
  after_results
  unfold Cert.ReferenceIdeal.Read.val_main_v13 Cert.ReferenceIdeal.Read.val_main_v12 Cert.ReferenceIdeal.Read.val_main_v11 Cert.ReferenceIdeal.Read.val_main_cst Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_c_0 Cert.ReferenceIdeal.Read.val_main_v5 Cert.ReferenceIdeal.Read.val_main_v4 Cert.ReferenceIdeal.Read.val_main_c Cert.ReferenceIdeal.Read.val_main_v1 Cert.ReferenceIdeal.Read.val_main_v0 Cert.ReferenceIdeal.Read.val_main_v3 Cert.ReferenceIdeal.Read.val_main_v2
  rfl

theorem entry0_feat (c : Dev nD) : V1 (F := Ideal) m ρ c main_arg0 = x0 m c := by
  show StableHlo.after hostOps0 (W0 m ρ c) (Proc.devRef .tc main_arg0) = _
  dsimp only [hostOps0]
  after_results
theorem entry0_wl (c : Dev nD) : V1 (F := Ideal) m ρ c main_arg2 = x2 m c := by
  show StableHlo.after hostOps0 (W0 m ρ c) (Proc.devRef .tc main_arg2) = _
  dsimp only [hostOps0]
  after_results
theorem entry0_wr (c : Dev nD) : V1 (F := Ideal) m ρ c main_arg3 = x3 m c := by
  show StableHlo.after hostOps0 (W0 m ρ c) (Proc.devRef .tc main_arg3) = _
  dsimp only [hostOps0]
  after_results
theorem entry0_bias (c : Dev nD) : V1 (F := Ideal) m ρ c main_v18 = Cert.ReferenceIdeal.Read.val_main_v25 (F := Ideal) (x4 m c) := by
  refine Eq.trans ?_ (bias_row_eq (x4 m c))
  show StableHlo.after hostOps0 (W0 m ρ c) (Proc.devRef .tc main_v18) = _
  dsimp only [hostOps0]
  after_results
  rfl

/-! ## Across the first region: a buffer that is no array of the region keeps its contents; an input array too -/

theorem mid_src (c : Dev nD) : W2 (F := Ideal) m ρ c (Proc.devRef .tc main_v1) = Cert.ReferenceIdeal.Read.val_main_v1 (F := Ideal) (x1 m c) := by
  refine (W2_of_ne m ρ c main_v1 (by decide)).trans ?_
  show StableHlo.after hostOps0 (W0 m ρ c) (Proc.devRef .tc main_v1) = _
  dsimp only [hostOps0]
  after_results
  unfold Cert.ReferenceIdeal.Read.val_main_v1 Cert.ReferenceIdeal.Read.val_main_v0
  rfl

theorem mid_dst (c : Dev nD) : W2 (F := Ideal) m ρ c (Proc.devRef .tc main_v3) = Cert.ReferenceIdeal.Read.val_main_v3 (F := Ideal) (x1 m c) := by
  refine (W2_of_ne m ρ c main_v3 (by decide)).trans ?_
  show StableHlo.after hostOps0 (W0 m ρ c) (Proc.devRef .tc main_v3) = _
  dsimp only [hostOps0]
  after_results
  unfold Cert.ReferenceIdeal.Read.val_main_v3 Cert.ReferenceIdeal.Read.val_main_v2
  rfl

theorem mid_cnt (c : Dev nD) : W2 (F := Ideal) m ρ c (Proc.devRef .tc main_v7) = Cert.ReferenceIdeal.Read.val_main_v17 (F := Ideal) (x1 m c) :=
  ((W2_arr m ρ c 1).trans (((dat0 (V1 m ρ) c).arrAt_in 1 rfl _).trans (A_eq0 (V1 m ρ) c 1))).trans (entry0_cnt m ρ c)

theorem mid_arg (b : Ref sig .tc) (hb : ∀ w, Pipeline.arrRef spec0 w ≠ b) (c : Dev nD) :
    W2 (F := Ideal) m ρ c (Proc.devRef .tc b) = W1 m ρ c (Proc.devRef .tc b) := W2_of_ne m ρ c b hb

theorem mid_w2l (c : Dev nD) : W2 (F := Ideal) m ρ c (Proc.devRef .tc main_arg5) = x5 m c := by
  refine (W2_of_ne m ρ c main_arg5 (by decide)).trans ?_
  show StableHlo.after hostOps0 (W0 m ρ c) (Proc.devRef .tc main_arg5) = _
  dsimp only [hostOps0]
  after_results
theorem mid_w2r (c : Dev nD) : W2 (F := Ideal) m ρ c (Proc.devRef .tc main_arg6) = x6 m c := by
  refine (W2_of_ne m ρ c main_arg6 (by decide)).trans ?_
  show StableHlo.after hostOps0 (W0 m ρ c) (Proc.devRef .tc main_arg6) = _
  dsimp only [hostOps0]
  after_results
theorem mid_b2 (c : Dev nD) : W2 (F := Ideal) m ρ c (Proc.devRef .tc main_arg7) = x7 m c := by
  refine (W2_of_ne m ρ c main_arg7 (by decide)).trans ?_
  show StableHlo.after hostOps0 (W0 m ρ c) (Proc.devRef .tc main_arg7) = _
  dsimp only [hostOps0]
  after_results
theorem mid_w3 (c : Dev nD) : W2 (F := Ideal) m ρ c (Proc.devRef .tc main_arg8) = x8 m c := by
  refine (W2_of_ne m ρ c main_arg8 (by decide)).trans ?_
  show StableHlo.after hostOps0 (W0 m ρ c) (Proc.devRef .tc main_arg8) = _
  dsimp only [hostOps0]
  after_results
theorem mid_b3 (c : Dev nD) : W2 (F := Ideal) m ρ c (Proc.devRef .tc main_arg9) = x9 m c := by
  refine (W2_of_ne m ρ c main_arg9 (by decide)).trans ?_
  show StableHlo.after hostOps0 (W0 m ρ c) (Proc.devRef .tc main_arg9) = _
  dsimp only [hostOps0]
  after_results

/-! ## What the second region is entered with, over what the first left in its result array `h` -/

set_option maxHeartbeats 4000000 in
/-- The second layer's neighbour sums: the host's gather and scatter-add of whatever the first region left. -/
theorem entry1_sums (c : Dev nD) (h : Vec Ideal S100000x64 .f32) (hh : W2 (F := Ideal) m ρ c (Proc.devRef .tc main_v19) = h) :
    V3 (F := Ideal) m ρ c main_v29
      = (Host.scatterAdd (F := Ideal) (φ := .f32) Cert.ReferenceIdeal.scatter_S100000x64_S1600000x1_S1600000x64_1_0_0_1 (Cert.ReferenceIdeal.Read.val_main_v36 (F := Ideal)) (Cert.ReferenceIdeal.Read.val_main_v37 (F := Ideal) (x1 m c))
          (Host.gather Cert.ReferenceIdeal.gather_S100000x64_S1600000x1_S1600000x64_1_0_n_n_0_1_164 h (Cert.ReferenceIdeal.Read.val_main_v34 (F := Ideal) (x1 m c))) : Vec Ideal S100000x64 .f32) := by
  show StableHlo.after hostOps1 (W2 m ρ c) (Proc.devRef .tc main_v29) = _
  dsimp only [hostOps1]
  after_results
  simp only [hh, mid_src m ρ c, mid_dst m ρ c]
  unfold Cert.ReferenceIdeal.Read.val_main_v37 Cert.ReferenceIdeal.Read.val_main_v36 Cert.ReferenceIdeal.Read.val_main_cst_6 Cert.ReferenceIdeal.Read.val_main_v34 Cert.ReferenceIdeal.Read.val_main_v33 Cert.ReferenceIdeal.Read.val_main_v32 Cert.ReferenceIdeal.Read.val_main_v31 Cert.ReferenceIdeal.Read.val_main_c_5 Cert.ReferenceIdeal.Read.val_main_v30 Cert.ReferenceIdeal.Read.val_main_v29 Cert.ReferenceIdeal.Read.val_main_c_4
  rfl

theorem entry1_cnt (c : Dev nD) : V3 (F := Ideal) m ρ c main_v7 = Cert.ReferenceIdeal.Read.val_main_v42 (F := Ideal) (x1 m c) := by
  refine Eq.trans ?_ (show Cert.ReferenceIdeal.Read.val_main_v17 (F := Ideal) (x1 m c) = Cert.ReferenceIdeal.Read.val_main_v42 (F := Ideal) (x1 m c) from by
    unfold Cert.ReferenceIdeal.Read.val_main_v17 Cert.ReferenceIdeal.Read.val_main_v16 Cert.ReferenceIdeal.Read.val_main_v15 Cert.ReferenceIdeal.Read.val_main_v14 Cert.ReferenceIdeal.Read.val_main_cst_1 Cert.ReferenceIdeal.Read.val_main_cst_2 Cert.ReferenceIdeal.Read.val_main_v42 Cert.ReferenceIdeal.Read.val_main_v41 Cert.ReferenceIdeal.Read.val_main_v40 Cert.ReferenceIdeal.Read.val_main_v39 Cert.ReferenceIdeal.Read.val_main_cst_7 Cert.ReferenceIdeal.Read.val_main_cst_8
    rfl)
  refine Eq.trans ?_ (mid_cnt m ρ c)
  show StableHlo.after hostOps1 (W2 m ρ c) (Proc.devRef .tc main_v7) = _
  dsimp only [hostOps1]
  after_results

theorem entry1_feat (c : Dev nD) : V3 (F := Ideal) m ρ c main_v19 = W2 m ρ c (Proc.devRef .tc main_v19) := by
  show StableHlo.after hostOps1 (W2 m ρ c) (Proc.devRef .tc main_v19) = _
  dsimp only [hostOps1]
  after_results
theorem entry1_wl (c : Dev nD) : V3 (F := Ideal) m ρ c main_arg5 = x5 m c := by
  refine Eq.trans ?_ (mid_w2l m ρ c)
  show StableHlo.after hostOps1 (W2 m ρ c) (Proc.devRef .tc main_arg5) = _
  dsimp only [hostOps1]
  after_results
theorem entry1_wr (c : Dev nD) : V3 (F := Ideal) m ρ c main_arg6 = x6 m c := by
  refine Eq.trans ?_ (mid_w2r m ρ c)
  show StableHlo.after hostOps1 (W2 m ρ c) (Proc.devRef .tc main_arg6) = _
  dsimp only [hostOps1]
  after_results
theorem entry1_proj (c : Dev nD) : V3 (F := Ideal) m ρ c main_arg8 = x8 m c := by
  refine Eq.trans ?_ (mid_w3 m ρ c)
  show StableHlo.after hostOps1 (W2 m ρ c) (Proc.devRef .tc main_arg8) = _
  dsimp only [hostOps1]
  after_results
theorem entry1_bias (c : Dev nD) : V3 (F := Ideal) m ρ c main_v30 = Cert.ReferenceIdeal.Read.val_main_v50 (F := Ideal) (x7 m c) := by
  refine Eq.trans ?_ (bias_row_eq2 (x7 m c))
  show StableHlo.after hostOps1 (W2 m ρ c) (Proc.devRef .tc main_v30) = _
  dsimp only [hostOps1]
  after_results
  simp only [mid_b2 m ρ c]
  rfl
theorem entry1_pbias (c : Dev nD) : V3 (F := Ideal) m ρ c main_v31 = Cert.ReferenceIdeal.Read.val_main_v55 (F := Ideal) (x9 m c) := by
  refine Eq.trans ?_ (bias_one_eq (x9 m c))
  show StableHlo.after hostOps1 (W2 m ρ c) (Proc.devRef .tc main_v31) = _
  dsimp only [hostOps1]
  after_results
  simp only [mid_b3 m ρ c]
  rfl

/-! ## The result buffer: the last reshape of what the second region left -/

theorem result_eq (c : Dev nD) :
    W5 (F := Ideal) m ρ c (Proc.devRef .tc main_v33)
      = (shapeCast S100000 (W4 (F := Ideal) m ρ c (Proc.devRef .tc main_v32) : Vec Ideal S100000x1 .f32) shapeCasts_S100000x1_S100000 : Vec Ideal S100000 .f32) := by
  show StableHlo.after hostOps2 (W4 m ρ c) (Proc.devRef .tc main_v33) = _
  dsimp only [hostOps2]
  after_results
  rfl

end Cert.Sage

end
-- ==== Proof.SageLayer.lean ====
/-
  One GraphSAGE layer with mean aggregation, as a function of whole arrays, entry by entry, on the extended reals.

  For a node `r` and an output feature `j`, with `S` the neighbour sums (one row per node), `C` the neighbour counts
  (one column), `X` the node's own features, `Wl`, `Wr` the two weight matrices and `B` the bias row:

      hidden r j = max ( Σ_k (S r k / max (C r) 1) · Wl k j  +  Σ_k X r k · Wr k j  +  B j ) 0.

  The second layer ends in a projection to one output per node:

      out r = Σ_k hidden r k · W3 k  +  b3.

  Nothing here depends on how the arrays are tiled or on the order in which a sum is taken: these are the functions
  both programs are compared with.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The shapes of the arrays a layer reads and writes. -/
abbrev Nodes64 : Shape := ⟨2, ![100000, 64]⟩
abbrev Nodes1 : Shape := ⟨2, ![100000, 1]⟩
abbrev W64x64 : Shape := ⟨2, ![64, 64]⟩
abbrev Row64 : Shape := ⟨2, ![1, 64]⟩
abbrev W64x1 : Shape := ⟨2, ![64, 1]⟩
abbrev One1 : Shape := ⟨2, ![1, 1]⟩

/-- The two float constants of a layer: the floor `1` under the neighbour count and the floor `0` of the rectifier, as
    the words the programs print. -/
abbrev oneF : EReal := Ideal.ofBits .f32 0x3F800000#32
abbrev zeroF : EReal := Ideal.ofBits .f32 0x00000000#32

/-- A hidden layer's entry at node `r`, feature `j`: the mean of the neighbour sums through `Wl`, the node's own
    features through `Wr`, the bias, rectified. -/
def hiddenAt (S : Nodes64.Idx → EReal) (C : Nodes1.Idx → EReal) (X : Nodes64.Idx → EReal)
    (Wl Wr : W64x64.Idx → EReal) (B : Row64.Idx → EReal) (r : Fin 100000) (j : Fin 64) : EReal :=
  max (((∑ k : Fin 64, Ideal.div (S (ix2 r k)) (max (C (ix2 r (0 : Fin 1))) oneF) * Wl (ix2 k j))
        + (∑ k : Fin 64, X (ix2 r k) * Wr (ix2 k j)))
       + B (ix2 (0 : Fin 1) j)) zeroF

/-- The hidden layer as a whole array. -/
def hidden (S : Nodes64.Idx → EReal) (C : Nodes1.Idx → EReal) (X : Nodes64.Idx → EReal)
    (Wl Wr : W64x64.Idx → EReal) (B : Row64.Idx → EReal) : Nodes64.Idx → EReal :=
  fun i => hiddenAt S C X Wl Wr B (i 0) (i 1)

/-- The last layer's entry at node `r`: the hidden layer projected by `W3`, plus `b3`. -/
def outAt (S : Nodes64.Idx → EReal) (C : Nodes1.Idx → EReal) (X : Nodes64.Idx → EReal)
    (Wl Wr : W64x64.Idx → EReal) (B : Row64.Idx → EReal) (W3 : W64x1.Idx → EReal) (b3 : One1.Idx → EReal)
    (r : Fin 100000) : EReal :=
  (∑ k : Fin 64, hiddenAt S C X Wl Wr B r k * W3 (ix2 k (0 : Fin 1))) + b3 (ix2 (0 : Fin 1) (0 : Fin 1))

/-- The last layer as a whole array (one column). -/
def out (S : Nodes64.Idx → EReal) (C : Nodes1.Idx → EReal) (X : Nodes64.Idx → EReal)
    (Wl Wr : W64x64.Idx → EReal) (B : Row64.Idx → EReal) (W3 : W64x1.Idx → EReal) (b3 : One1.Idx → EReal) :
    Nodes1.Idx → EReal :=
  fun i => outAt S C X Wl Wr B W3 b3 (i 0)

theorem hidden_apply (S : Nodes64.Idx → EReal) (C : Nodes1.Idx → EReal) (X : Nodes64.Idx → EReal)
    (Wl Wr : W64x64.Idx → EReal) (B : Row64.Idx → EReal) (r : Fin 100000) (j : Fin 64) :
    hidden S C X Wl Wr B (ix2 r j) = hiddenAt S C X Wl Wr B r j := rfl

theorem out_apply (S : Nodes64.Idx → EReal) (C : Nodes1.Idx → EReal) (X : Nodes64.Idx → EReal)
    (Wl Wr : W64x64.Idx → EReal) (B : Row64.Idx → EReal) (W3 : W64x1.Idx → EReal) (b3 : One1.Idx → EReal)
    (r : Fin 100000) (q : Fin 1) :
    out S C X Wl Wr B W3 b3 (ix2 r q) = outAt S C X Wl Wr B W3 b3 r := rfl

end Cert.Sage

end
-- ==== Proof.BodyAt.lean ====
/-
  What each of the two kernel bodies stores, read at one entry of the stored block.

  The first body stores, at row `p` and column `q` of a block of 4000 rows,

      max ( Σ_k (s p k / max (c p) 1) · wl k q  +  Σ_k x p k · wr k q  +  b q ) 0,

  and the second body stores, at row `p`, the sum over `k` of that entry at column `k` times `w3 k`, plus `b3`.
  A change of float format is the identity on the extended reals, a cast of a block to its own shape is the identity,
  and a product into a zero accumulator is the plain sum of products over the contracted axis.
-/
import proofs.«133992_j36507222016452_1_alg».proof.Proof.Gen.KernelIdeal.Skeleton
import proofs.«133992_j36507222016452_1_alg».proof.Proof.SageLayer
import Idealize.ShloMosaic.Lib.ValueIdx
import Idealize.ShloMosaic.Lib.ValueLayout
import Idealize.ShloMosaic.Lib.Pipeline.Value
import Idealize.ShloMosaic.PureOps.Ideal.Laws
noncomputable section
namespace Cert.Sage
open Idealize.ShloMosaic Idealize.ShloMosaic.ValueIdx Cert.KernelIdeal Cert.KernelIdeal.Gen

/-! ## The two contractions' operand indices, axis by axis -/

theorem lhs_mm64_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_mm64_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_mm64_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_mm64_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

theorem lhs_mm1_0 (i : S4000x1.Idx) (q : dot_S4000x64_S64x1_S4000x1_1_0_0_1_n_n.contr.Idx) :
    (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
theorem lhs_mm1_1 (i : S4000x1.Idx) (q : dot_S4000x64_S64x1_S4000x1_1_0_0_1_n_n.contr.Idx) :
    (dot_S4000x64_S64x1_S4000x1_1_0_0_1_n_n.lhsIdx i q 1).val = (q ⟨0, by decide⟩).val :=
  dot_S4000x64_S64x1_S4000x1_1_0_0_1_n_n.lhsIdx_val_of_single rfl i q
theorem rhs_mm1_0 (i : S4000x1.Idx) (q : dot_S4000x64_S64x1_S4000x1_1_0_0_1_n_n.contr.Idx) :
    (dot_S4000x64_S64x1_S4000x1_1_0_0_1_n_n.rhsIdx i q 0).val = (q ⟨0, by decide⟩).val :=
  dot_S4000x64_S64x1_S4000x1_1_0_0_1_n_n.rhsIdx_val_of_single rfl i q
theorem rhs_mm1_1 (i : S4000x1.Idx) (q : dot_S4000x64_S64x1_S4000x1_1_0_0_1_n_n.contr.Idx) :
    (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-! ## A product into a zero accumulator, read at one entry: the row of the left factor against the column of the right -/

theorem mm64_at {φ₁ φ₂ : FTy} (l : FVec Ideal S4000x64 φ₁) (r : FVec Ideal S64x64 φ₂) (p : Fin 4000) (q : Fin 64) :
    matmul (F := Ideal) dot_S4000x64_S64x64_S4000x64_1_0_0_1_n_n none l r (constant (F := Ideal) S4000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_mm64_0 _ _
    | ⟨1, _⟩ => exact (lhs_mm64_1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_mm64_0 _ _).trans hk
    | ⟨1, _⟩ => exact rhs_mm64_1 _ _)
  rw [el, er]

theorem mm1_at {φ₁ φ₂ : FTy} (l : FVec Ideal S4000x64 φ₁) (r : FVec Ideal S64x1 φ₂) (p : Fin 4000) (q : Fin 1) :
    matmul (F := Ideal) dot_S4000x64_S64x1_S4000x1_1_0_0_1_n_n none l r (constant (F := Ideal) S4000x1 .f32 0x00000000#32) (ix2 p q)
      = ∑ k : Fin 64, l (ix2 p k) * r (ix2 k q) := by
  simp only [matmul]
  rw [Ideal.matmul_constant_zero_apply, ← Equiv.sum_comp (ValueIdx.contrEquiv1 dot_S4000x64_S64x1_S4000x1_1_0_0_1_n_n 64 rfl rfl).symm]
  refine Finset.sum_congr rfl fun k _ => ?_
  have hk := ValueIdx.contrEquiv1_symm_val dot_S4000x64_S64x1_S4000x1_1_0_0_1_n_n 64 rfl rfl k
  have el : dot_S4000x64_S64x1_S4000x1_1_0_0_1_n_n.lhsIdx (ix2 p q) ((ValueIdx.contrEquiv1 dot_S4000x64_S64x1_S4000x1_1_0_0_1_n_n 64 rfl rfl).symm k) = ix2 p k := funext fun a => Fin.ext (by
    match a with
    | ⟨0, _⟩ => exact lhs_mm1_0 _ _
    | ⟨1, _⟩ => exact (lhs_mm1_1 _ _).trans hk)
  have er : dot_S4000x64_S64x1_S4000x1_1_0_0_1_n_n.rhsIdx (ix2 p q) ((ValueIdx.contrEquiv1 dot_S4000x64_S64x1_S4000x1_1_0_0_1_n_n 64 rfl rfl).symm k) = ix2 k q := funext fun a => Fin.ext (by
    match a with
    | ⟨0, _⟩ => exact (rhs_mm1_0 _ _).trans hk
    | ⟨1, _⟩ => exact rhs_mm1_1 _ _)
  rw [el, er]

/-! ## The three broadcasts, read at one entry -/

/-- A column spread over 64 columns reads the column's entry of that row. -/
theorem bcast_col_at {α : Type} (y : S4000x1.Idx → α) (h : S4000x1.Broadcasts S4000x64) (p : Fin 4000) (q : Fin 64) :
    broadcastTo S4000x64 y h (ix2 p q) = y (ix2 p (0 : Fin 1)) :=
  broadcastTo_apply y h (ix2 p q) (ix2 p (0 : Fin 1)) (fun a => match a with
    | ⟨0, _⟩ => by show p.val = if (4000 : Nat) = 1 then 0 else p.val; rw [if_neg (by decide)]
    | ⟨1, _⟩ => by show 0 = if (1 : Nat) = 1 then 0 else q.val; rw [if_pos rfl])

/-- A row spread over 4000 rows reads the row's entry of that column. -/
theorem bcast_row_at {α : Type} (y : S1x64.Idx → α) (h : S1x64.Broadcasts S4000x64) (p : Fin 4000) (q : Fin 64) :
    broadcastTo S4000x64 y h (ix2 p q) = y (ix2 (0 : Fin 1) q) :=
  broadcastTo_apply y h (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- A single entry spread over a column reads that entry. -/
theorem bcast_one_at {α : Type} (y : S1x1.Idx → α) (h : S1x1.Broadcasts S4000x1) (p : Fin 4000) (q : Fin 1) :
    broadcastTo S4000x1 y h (ix2 p q) = y (ix2 (0 : Fin 1) (0 : Fin 1)) :=
  broadcastTo_apply y h (ix2 p q) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else q.val; rw [if_pos rfl])

/-! ## What the two bodies store, entry by entry -/

theorem body0_at (c : Vec Ideal S4000x1 .f32) (s x : Vec Ideal S4000x64 .f32) (wl wr : Vec Ideal S64x64 .f32)
    (b : Vec Ideal S1x64 .f32) (p : Fin 4000) (q : Fin 64) :
    k0_pay1 (F := Ideal) c s x wl wr b (ix2 p q)
      = max (((∑ k : Fin 64, Ideal.div (s (ix2 p k)) (max (c (ix2 p (0 : Fin 1))) oneF) * wl (ix2 k q))
              + (∑ k : Fin 64, x (ix2 p k) * wr (ix2 k q)))
             + b (ix2 (0 : Fin 1) q)) zeroF := by
  unfold k0_pay1
  simp only [shapeCast_self]
  show max ((matmul (F := Ideal) dot_S4000x64_S64x64_S4000x64_1_0_0_1_n_n none _ _ (constant (F := Ideal) S4000x64 .f32 0x00000000#32) (ix2 p q)
             + matmul (F := Ideal) dot_S4000x64_S64x64_S4000x64_1_0_0_1_n_n none _ _ (constant (F := Ideal) S4000x64 .f32 0x00000000#32) (ix2 p q))
            + broadcastTo S4000x64 b broadcasts_S1x64_S4000x64 (ix2 p q)) zeroF = _
  rw [mm64_at, mm64_at, bcast_row_at]
  show max (((∑ k : Fin 64, Ideal.div (s (ix2 p k))
                  (broadcastTo S4000x64 (maximumf (F := Ideal) c (broadcast S4000x1 oneF)) broadcasts_S4000x1_S4000x64 (ix2 p k)) * wl (ix2 k q))
              + (∑ k : Fin 64, x (ix2 p k) * wr (ix2 k q)))
             + b (ix2 (0 : Fin 1) q)) zeroF = _
  simp only [bcast_col_at]
  rfl

/-- The second body is the first body's block (its feature block passed through a cast to its own shape), projected
    by the last weight column into a zero accumulator, plus the last bias spread over the column. -/
theorem k1_pay1_eq (c : Vec Ideal S4000x1 .f32) (s x : Vec Ideal S4000x64 .f32) (wl wr : Vec Ideal S64x64 .f32)
    (b : Vec Ideal S1x64 .f32) (w3 : Vec Ideal S64x1 .f32) (b3 : Vec Ideal S1x1 .f32) :
    k1_pay1 (F := Ideal) c s x wl wr b w3 b3
      = addf (matmul (F := Ideal) dot_S4000x64_S64x1_S4000x1_1_0_0_1_n_n none
                (truncf .bf16 (k0_pay1 (F := Ideal) c s (shapeCast S4000x64 x shapeCasts_S4000x64_S4000x64) wl wr b) bitsLt_bf16_f32)
                (truncf .bf16 w3 bitsLt_bf16_f32) (constant (F := Ideal) S4000x1 .f32 0x00000000#32))
             (broadcastTo S4000x1 (shapeCast S1x1 b3 shapeCasts_S1x1_S1x1) broadcasts_S1x1_S4000x1) := rfl

theorem body1_at (c : Vec Ideal S4000x1 .f32) (s x : Vec Ideal S4000x64 .f32) (wl wr : Vec Ideal S64x64 .f32)
    (b : Vec Ideal S1x64 .f32) (w3 : Vec Ideal S64x1 .f32) (b3 : Vec Ideal S1x1 .f32) (p : Fin 4000) (q : Fin 1) :
    k1_pay1 (F := Ideal) c s x wl wr b w3 b3 (ix2 p q)
      = (∑ k : Fin 64,
            max (((∑ k' : Fin 64, Ideal.div (s (ix2 p k')) (max (c (ix2 p (0 : Fin 1))) oneF) * wl (ix2 k' k))
                  + (∑ k' : Fin 64, x (ix2 p k') * wr (ix2 k' k)))
                 + b (ix2 (0 : Fin 1) k)) zeroF * w3 (ix2 k (0 : Fin 1)))
        + b3 (ix2 (0 : Fin 1) (0 : Fin 1)) := by
  have hq : q = 0 := Subsingleton.elim _ _
  subst hq
  rw [k1_pay1_eq]
  show matmul (F := Ideal) dot_S4000x64_S64x1_S4000x1_1_0_0_1_n_n none _ _ (constant (F := Ideal) S4000x1 .f32 0x00000000#32) (ix2 p (0 : Fin 1))
        + broadcastTo S4000x1 (shapeCast S1x1 b3 shapeCasts_S1x1_S1x1) broadcasts_S1x1_S4000x1 (ix2 p (0 : Fin 1)) = _
  rw [mm1_at, bcast_one_at, shapeCast_self, shapeCast_self]
  show (∑ k : Fin 64, k0_pay1 (F := Ideal) c s x wl wr b (ix2 p k) * w3 (ix2 k (0 : Fin 1)))
        + b3 (ix2 (0 : Fin 1) (0 : Fin 1)) = _
  simp only [body0_at]

end Cert.Sage

end
-- ==== Proof.Region0.lean ====
/-
  The first pallas_call, as a function of whole arrays.

  The call walks the 100000 node rows in 25 blocks of 4000. At point `t` it reads rows `4000 t … 4000 t + 3999` of the
  neighbour sums, of the neighbour counts and of the node features, reads the two weight matrices and the bias row whole,
  and writes the same rows of its result. What it writes at row `p` of the block is the hidden-layer entry of node
  `4000 t + p`, so block `t` of the result is block `t` of the one whole-array function `hidden` of the arrays the
  call was entered with; the 25 blocks cover every node (node `r` lies in block `r / 4000`), hence the result array IS
  `hidden` of those arrays. All of it holds whatever the entry arrays are: they are a parameter here.
-/
import proofs.«133992_j36507222016452_1_alg».proof.Proof.Gen.KernelIdeal.Frame
import proofs.«133992_j36507222016452_1_alg».proof.Proof.SageLayer
import proofs.«133992_j36507222016452_1_alg».proof.Proof.BodyAt
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Sage

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The arrays the first region reads, each by its literal type. -/
abbrev sums0 (c : Dev nD) : Vec Ideal S100000x64 .f32 := V c main_v17
abbrev cnt0 (c : Dev nD) : Vec Ideal S100000x1 .f32 := V c main_v7
abbrev feat0 (c : Dev nD) : Vec Ideal S100000x64 .f32 := V c main_arg0
abbrev wl0 (c : Dev nD) : Vec Ideal S64x64 .f32 := V c main_arg2
abbrev wr0 (c : Dev nD) : Vec Ideal S64x64 .f32 := V c main_arg3
abbrev bias0 (c : Dev nD) : Vec Ideal S1x64 .f32 := V c main_v18

/-- The printed index maps over the grid: the three node-indexed inputs and the output move with the point, block
    `t` holding rows `4000 t … 4000 t + 3999`; the weights and the bias stay at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Block `t` of a node-indexed input, at row `p` of the block, is row `4000 t + p` of the array. -/
theorem rd_sums0 (c : Dev nD) (t : Fin cfg0.N) (p : Fin 4000) (r : Fin 100000) (hr : r.val = 4000 * t.val + p.val) (k : Fin 64) :
    (iblk0 V c 0 t : Vec Ideal S4000x64 .f32) (ix2 p k) = sums0 V c (ix2 r k) := by
  unfold iblk0
  rw [View.read_apply]
  show V c main_v17 _ = V c main_v17 _
  refine congrArg (V c main_v17) ?_
  funext a; apply Fin.ext
  obtain ⟨e0, e1, -⟩ := idx_facts0 t
  match a with
  | ⟨0, _⟩ => show win0_0.index t (0 : Fin 2) * 4000 + 1 * p.val = r.val; rw [e0, hr]; omega
  | ⟨1, _⟩ => show win0_0.index t (1 : Fin 2) * 64 + 1 * k.val = k.val; rw [e1]; omega

theorem rd_cnt0 (c : Dev nD) (t : Fin cfg0.N) (p : Fin 4000) (r : Fin 100000) (hr : r.val = 4000 * t.val + p.val) :
    (iblk0 V c 1 t : Vec Ideal S4000x1 .f32) (ix2 p (0 : Fin 1)) = cnt0 V c (ix2 r (0 : Fin 1)) := by
  unfold iblk0
  rw [View.read_apply]
  show V c main_v7 _ = V c main_v7 _
  refine congrArg (V c main_v7) ?_
  funext a; apply Fin.ext
  obtain ⟨-, -, e0, e1, -⟩ := idx_facts0 t
  match a with
  | ⟨0, _⟩ => show win0_1.index t (0 : Fin 2) * 4000 + 1 * p.val = r.val; rw [e0, hr]; omega
  | ⟨1, _⟩ => show win0_1.index t (1 : Fin 2) * 1 + 1 * 0 = 0; rw [e1]

theorem rd_feat0 (c : Dev nD) (t : Fin cfg0.N) (p : Fin 4000) (r : Fin 100000) (hr : r.val = 4000 * t.val + p.val) (k : Fin 64) :
    (iblk0 V c 2 t : Vec Ideal S4000x64 .f32) (ix2 p k) = feat0 V c (ix2 r k) := by
  unfold iblk0
  rw [View.read_apply]
  show V c main_arg0 _ = V c main_arg0 _
  refine congrArg (V c main_arg0) ?_
  funext a; apply Fin.ext
  obtain ⟨-, -, -, -, e0, e1, -⟩ := idx_facts0 t
  match a with
  | ⟨0, _⟩ => show win0_2.index t (0 : Fin 2) * 4000 + 1 * p.val = r.val; rw [e0, hr]; omega
  | ⟨1, _⟩ => show win0_2.index t (1 : Fin 2) * 64 + 1 * k.val = k.val; rw [e1]; omega

/-- The weights and the bias are read whole at every point. -/
theorem rd_wl0 (c : Dev nD) (t : Fin cfg0.N) (k q : Fin 64) :
    (iblk0 V c 3 t : Vec Ideal S64x64 .f32) (ix2 k q) = wl0 V c (ix2 k q) := by
  unfold iblk0
  rw [View.read_apply]
  show V c main_arg2 _ = V c main_arg2 _
  refine congrArg (V c main_arg2) ?_
  funext a; apply Fin.ext
  obtain ⟨-, -, -, -, -, -, e0, e1, -⟩ := idx_facts0 t
  match a with
  | ⟨0, _⟩ => show win0_3.index t (0 : Fin 2) * 64 + 1 * k.val = k.val; rw [e0]; omega
  | ⟨1, _⟩ => show win0_3.index t (1 : Fin 2) * 64 + 1 * q.val = q.val; rw [e1]; omega

theorem rd_wr0 (c : Dev nD) (t : Fin cfg0.N) (k q : Fin 64) :
    (iblk0 V c 4 t : Vec Ideal S64x64 .f32) (ix2 k q) = wr0 V c (ix2 k q) := by
  unfold iblk0
  rw [View.read_apply]
  show V c main_arg3 _ = V c main_arg3 _
  refine congrArg (V c main_arg3) ?_
  funext a; apply Fin.ext
  obtain ⟨-, -, -, -, -, -, -, -, e0, e1, -⟩ := idx_facts0 t
  match a with
  | ⟨0, _⟩ => show win0_4.index t (0 : Fin 2) * 64 + 1 * k.val = k.val; rw [e0]; omega
  | ⟨1, _⟩ => show win0_4.index t (1 : Fin 2) * 64 + 1 * q.val = q.val; rw [e1]; omega

theorem rd_bias0 (c : Dev nD) (t : Fin cfg0.N) (q : Fin 64) :
    (iblk0 V c 5 t : Vec Ideal S1x64 .f32) (ix2 (0 : Fin 1) q) = bias0 V c (ix2 (0 : Fin 1) q) := by
  unfold iblk0
  rw [View.read_apply]
  show V c main_v18 _ = V c main_v18 _
  refine congrArg (V c main_v18) ?_
  funext a; apply Fin.ext
  obtain ⟨-, -, -, -, -, -, -, -, -, -, e0, e1, -⟩ := idx_facts0 t
  match a with
  | ⟨0, _⟩ => show win0_5.index t (0 : Fin 2) * 1 + 1 * 0 = 0; rw [e0]
  | ⟨1, _⟩ => show win0_5.index t (1 : Fin 2) * 64 + 1 * q.val = q.val; rw [e1]; omega

/-- An index of the output array is in point `t`'s block iff each coordinate is in the block's range on its axis. -/
theorem mem_blk0 (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v19).slice (win0_6.rect t)).set ↔ _
  rw [View.set_slice_whole, Rect.mem_set_unit]
  exact Iff.rfl

/-- Every node row lies in the block of the point `r / 4000`. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 25 := N_0
  refine ⟨⟨(i 0).val / 4000, by rw [hN]; omega⟩, flush0_6 _, ?_⟩
  rw [mem_blk0]
  obtain ⟨-, -, -, -, -, -, -, -, -, -, -, -, e0, e1⟩ := idx_facts0 ⟨(i 0).val / 4000, by rw [hN]; omega⟩
  intro a
  match a with
  | ⟨0, _⟩ => show win0_6.index _ (0 : Fin 2) * 4000 ≤ (i 0).val ∧ (i 0).val < win0_6.index _ (0 : Fin 2) * 4000 + 4000; rw [e0]; show (i 0).val / 4000 * 4000 ≤ (i 0).val ∧ (i 0).val < (i 0).val / 4000 * 4000 + 4000; omega
  | ⟨1, _⟩ => show win0_6.index _ (1 : Fin 2) * 64 ≤ (i 1).val ∧ (i 1).val < win0_6.index _ (1 : Fin 2) * 64 + 64; rw [e1]; omega

/-- WHAT POINT `t` WRITES BACK is block `t` of `hidden` of the arrays as the region finds them. -/
theorem flushed0_eq (c : Dev nD) (t : Fin cfg0.N) :
    (dat0 (F := Ideal) V c).flushed 6 t = ((cfg0.win 6).blk t).view.read (Elt Ideal)
      (hidden (sums0 V c) (cnt0 V c) (feat0 V c) (wl0 V c) (wr0 V c) (bias0 V c)) := by
  show (cfg0.win 6).cut (grid0.coords t) ((dat0 (F := Ideal) V c).after 6 t) = _
  rw [after0_6]
  unfold out0_6
  rw [View.canon_unit_zero hz]
  simp only [View.ld_unit_zero (S := S4000x64) hz, View.ld_unit_zero (S := S4000x1) hz, View.ld_unit_zero (S := S64x64) hz, View.ld_unit_zero (S := S1x64) hz]
  funext j
  obtain ⟨p, q, rfl⟩ : ∃ (p : Fin 4000) (q : Fin 64), (j : S4000x64.Idx) = ix2 p q := ⟨j 0, j 1, eq_ix2 j⟩
  have hN : cfg0.N = 25 := N_0
  have ht : t.val < 25 := hN ▸ t.isLt
  have hp : p.val < 4000 := p.isLt
  let r : Fin 100000 := ⟨4000 * t.val + p.val, by omega⟩
  have hemb : ((cfg0.win 6).blk t).view.emb (ix2 p q) = (ix2 r q : S100000x64.Idx) := by
    funext a; apply Fin.ext
    obtain ⟨-, -, -, -, -, -, -, -, -, -, -, -, e0, e1⟩ := idx_facts0 t
    match a with
    | ⟨0, _⟩ => show win0_6.index t (0 : Fin 2) * 4000 + 1 * p.val = 4000 * t.val + p.val; rw [e0]; omega
    | ⟨1, _⟩ => show win0_6.index t (1 : Fin 2) * 64 + 1 * q.val = q.val; rw [e1]; omega
  show k0_pay1 (F := Ideal) (iblk0 V c 1 t) (iblk0 V c 0 t) (iblk0 V c 2 t) (iblk0 V c 3 t) (iblk0 V c 4 t) (iblk0 V c 5 t) (ix2 p q)
      = hidden (sums0 V c) (cnt0 V c) (feat0 V c) (wl0 V c) (wr0 V c) (bias0 V c) (((cfg0.win 6).blk t).view.emb (ix2 p q))
  refine (body0_at (iblk0 V c 1 t) (iblk0 V c 0 t) (iblk0 V c 2 t) (iblk0 V c 3 t) (iblk0 V c 4 t) (iblk0 V c 5 t) p q).trans ?_
  rw [hemb, hidden_apply]
  unfold hiddenAt
  simp only [rd_sums0 V c t p r rfl, rd_cnt0 V c t p r rfl, rd_feat0 V c t p r rfl, rd_wl0 V c t, rd_wr0 V c t, rd_bias0 V c t]

/-- THE ARRAY the first region leaves: `hidden` of the arrays it was entered with. -/
theorem final0 (c : Dev nD) :
    (dat0 (F := Ideal) V c).arrAt 6 cfg0.N = hidden (sums0 V c) (cnt0 V c) (feat0 V c) (wl0 V c) (wr0 V c) (bias0 V c) :=
  (dat0 (F := Ideal) V c).arrAt_eq_of_cover 6 _ (fun t _ => flushed0_eq V c t) cover0

end Cert.Sage

end
-- ==== Proof.Region1.lean ====
/-
  The second pallas_call, as a function of whole arrays.

  The same walk over the 100000 node rows in 25 blocks of 4000, now reading the second layer's neighbour sums, the
  counts, the first layer's output, the second pair of weight matrices and bias row, and the projection column with its
  one-entry bias, all but the three node-indexed arrays whole at every point. What it writes at row `p` of block `t` is
  the projected entry of node `4000 t + p`: block `t` of the one-column result is block `t` of the whole-array function
  `out` of the arrays the call was entered with, the blocks cover every node, hence the result array IS `out` of those
  arrays — whatever they are.
-/
import proofs.«133992_j36507222016452_1_alg».proof.Proof.Gen.KernelIdeal.Frame
import proofs.«133992_j36507222016452_1_alg».proof.Proof.SageLayer
import proofs.«133992_j36507222016452_1_alg».proof.Proof.BodyAt
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Sage

open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- The arrays the second region reads, each by its literal type. -/
abbrev sums1 (c : Dev nD) : Vec Ideal S100000x64 .f32 := V c main_v29
abbrev cnt1 (c : Dev nD) : Vec Ideal S100000x1 .f32 := V c main_v7
abbrev feat1 (c : Dev nD) : Vec Ideal S100000x64 .f32 := V c main_v19
abbrev wl1 (c : Dev nD) : Vec Ideal S64x64 .f32 := V c main_arg5
abbrev wr1 (c : Dev nD) : Vec Ideal S64x64 .f32 := V c main_arg6
abbrev bias1 (c : Dev nD) : Vec Ideal S1x64 .f32 := V c main_v30
abbrev proj1 (c : Dev nD) : Vec Ideal S64x1 .f32 := V c main_arg8
abbrev pbias1 (c : Dev nD) : Vec Ideal S1x1 .f32 := V c main_v31

/-- The printed index maps over the grid: the three node-indexed inputs and the output move with the point, block
    `t` holding rows `4000 t … 4000 t + 3999`; the weights, the biases and the projection stay at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Block `t` of a node-indexed input, at row `p` of the block, is row `4000 t + p` of the array. -/
theorem rd_sums1 (c : Dev nD) (t : Fin cfg1.N) (p : Fin 4000) (r : Fin 100000) (hr : r.val = 4000 * t.val + p.val) (k : Fin 64) :
    (iblk1 V c 0 t : Vec Ideal S4000x64 .f32) (ix2 p k) = sums1 V c (ix2 r k) := by
  unfold iblk1
  rw [View.read_apply]
  show V c main_v29 _ = V c main_v29 _
  refine congrArg (V c main_v29) ?_
  funext a; apply Fin.ext
  obtain ⟨e0, e1, -⟩ := idx_facts1 t
  match a with
  | ⟨0, _⟩ => show win1_0.index t (0 : Fin 2) * 4000 + 1 * p.val = r.val; rw [e0, hr]; omega
  | ⟨1, _⟩ => show win1_0.index t (1 : Fin 2) * 64 + 1 * k.val = k.val; rw [e1]; omega

theorem rd_cnt1 (c : Dev nD) (t : Fin cfg1.N) (p : Fin 4000) (r : Fin 100000) (hr : r.val = 4000 * t.val + p.val) :
    (iblk1 V c 1 t : Vec Ideal S4000x1 .f32) (ix2 p (0 : Fin 1)) = cnt1 V c (ix2 r (0 : Fin 1)) := by
  unfold iblk1
  rw [View.read_apply]
  show V c main_v7 _ = V c main_v7 _
  refine congrArg (V c main_v7) ?_
  funext a; apply Fin.ext
  obtain ⟨-, -, e0, e1, -⟩ := idx_facts1 t
  match a with
  | ⟨0, _⟩ => show win1_1.index t (0 : Fin 2) * 4000 + 1 * p.val = r.val; rw [e0, hr]; omega
  | ⟨1, _⟩ => show win1_1.index t (1 : Fin 2) * 1 + 1 * 0 = 0; rw [e1]

theorem rd_feat1 (c : Dev nD) (t : Fin cfg1.N) (p : Fin 4000) (r : Fin 100000) (hr : r.val = 4000 * t.val + p.val) (k : Fin 64) :
    (iblk1 V c 2 t : Vec Ideal S4000x64 .f32) (ix2 p k) = feat1 V c (ix2 r k) := by
  unfold iblk1
  rw [View.read_apply]
  show V c main_v19 _ = V c main_v19 _
  refine congrArg (V c main_v19) ?_
  funext a; apply Fin.ext
  obtain ⟨-, -, -, -, e0, e1, -⟩ := idx_facts1 t
  match a with
  | ⟨0, _⟩ => show win1_2.index t (0 : Fin 2) * 4000 + 1 * p.val = r.val; rw [e0, hr]; omega
  | ⟨1, _⟩ => show win1_2.index t (1 : Fin 2) * 64 + 1 * k.val = k.val; rw [e1]; omega

/-- The weights, the biases and the projection are read whole at every point. -/
theorem rd_wl1 (c : Dev nD) (t : Fin cfg1.N) (k q : Fin 64) :
    (iblk1 V c 3 t : Vec Ideal S64x64 .f32) (ix2 k q) = wl1 V c (ix2 k q) := by
  unfold iblk1
  rw [View.read_apply]
  show V c main_arg5 _ = V c main_arg5 _
  refine congrArg (V c main_arg5) ?_
  funext a; apply Fin.ext
  obtain ⟨-, -, -, -, -, -, e0, e1, -⟩ := idx_facts1 t
  match a with
  | ⟨0, _⟩ => show win1_3.index t (0 : Fin 2) * 64 + 1 * k.val = k.val; rw [e0]; omega
  | ⟨1, _⟩ => show win1_3.index t (1 : Fin 2) * 64 + 1 * q.val = q.val; rw [e1]; omega

theorem rd_wr1 (c : Dev nD) (t : Fin cfg1.N) (k q : Fin 64) :
    (iblk1 V c 4 t : Vec Ideal S64x64 .f32) (ix2 k q) = wr1 V c (ix2 k q) := by
  unfold iblk1
  rw [View.read_apply]
  show V c main_arg6 _ = V c main_arg6 _
  refine congrArg (V c main_arg6) ?_
  funext a; apply Fin.ext
  obtain ⟨-, -, -, -, -, -, -, -, e0, e1, -⟩ := idx_facts1 t
  match a with
  | ⟨0, _⟩ => show win1_4.index t (0 : Fin 2) * 64 + 1 * k.val = k.val; rw [e0]; omega
  | ⟨1, _⟩ => show win1_4.index t (1 : Fin 2) * 64 + 1 * q.val = q.val; rw [e1]; omega

theorem rd_bias1 (c : Dev nD) (t : Fin cfg1.N) (q : Fin 64) :
    (iblk1 V c 5 t : Vec Ideal S1x64 .f32) (ix2 (0 : Fin 1) q) = bias1 V c (ix2 (0 : Fin 1) q) := by
  unfold iblk1
  rw [View.read_apply]
  show V c main_v30 _ = V c main_v30 _
  refine congrArg (V c main_v30) ?_
  funext a; apply Fin.ext
  obtain ⟨-, -, -, -, -, -, -, -, -, -, e0, e1, -⟩ := idx_facts1 t
  match a with
  | ⟨0, _⟩ => show win1_5.index t (0 : Fin 2) * 1 + 1 * 0 = 0; rw [e0]
  | ⟨1, _⟩ => show win1_5.index t (1 : Fin 2) * 64 + 1 * q.val = q.val; rw [e1]; omega

theorem rd_proj1 (c : Dev nD) (t : Fin cfg1.N) (k : Fin 64) :
    (iblk1 V c 6 t : Vec Ideal S64x1 .f32) (ix2 k (0 : Fin 1)) = proj1 V c (ix2 k (0 : Fin 1)) := by
  unfold iblk1
  rw [View.read_apply]
  show V c main_arg8 _ = V c main_arg8 _
  refine congrArg (V c main_arg8) ?_
  funext a; apply Fin.ext
  obtain ⟨-, -, -, -, -, -, -, -, -, -, -, -, e0, e1, -⟩ := idx_facts1 t
  match a with
  | ⟨0, _⟩ => show win1_6.index t (0 : Fin 2) * 64 + 1 * k.val = k.val; rw [e0]; omega
  | ⟨1, _⟩ => show win1_6.index t (1 : Fin 2) * 1 + 1 * 0 = 0; rw [e1]

theorem rd_pbias1 (c : Dev nD) (t : Fin cfg1.N) :
    (iblk1 V c 7 t : Vec Ideal S1x1 .f32) (ix2 (0 : Fin 1) (0 : Fin 1)) = pbias1 V c (ix2 (0 : Fin 1) (0 : Fin 1)) := by
  unfold iblk1
  rw [View.read_apply]
  show V c main_v31 _ = V c main_v31 _
  refine congrArg (V c main_v31) ?_
  funext a; apply Fin.ext
  obtain ⟨-, -, -, -, -, -, -, -, -, -, -, -, -, -, e0, e1, -⟩ := idx_facts1 t
  match a with
  | ⟨0, _⟩ => show win1_7.index t (0 : Fin 2) * 1 + 1 * 0 = 0; rw [e0]
  | ⟨1, _⟩ => show win1_7.index t (1 : Fin 2) * 1 + 1 * 0 = 0; rw [e1]

/-- An index of the output column is in point `t`'s block iff each coordinate is in the block's range on its axis. -/
theorem mem_blk1 (t : Fin cfg1.N) (i : S100000x1.Idx) :
    i ∈ ((cfg1.win 8).blk t).view.set ↔ ∀ a : Fin 2, win1_8.index t a * S4000x1.size a ≤ (i a).val ∧ (i a).val < win1_8.index t a * S4000x1.size a + S4000x1.size a := by
  show i ∈ ((View.whole main_v32).slice (win1_8.rect t)).set ↔ _
  rw [View.set_slice_whole, Rect.mem_set_unit]
  exact Iff.rfl

/-- Every node row lies in the block of the point `r / 4000`. -/
theorem cover1 (i : S100000x1.Idx) : ∃ t : Fin cfg1.N, (cfg1.win 8).flush t = true ∧ i ∈ ((cfg1.win 8).blk t).view.set := by
  have hi0 : (i 0).val < 100000 := (i 0).isLt
  have hi1 : (i 1).val < 1 := (i 1).isLt
  have hN : cfg1.N = 25 := N_1
  refine ⟨⟨(i 0).val / 4000, by rw [hN]; omega⟩, flush1_8 _, ?_⟩
  rw [mem_blk1]
  obtain ⟨-, -, -, -, -, -, -, -, -, -, -, -, -, -, -, -, e0, e1⟩ := idx_facts1 ⟨(i 0).val / 4000, by rw [hN]; omega⟩
  intro a
  match a with
  | ⟨0, _⟩ => show win1_8.index _ (0 : Fin 2) * 4000 ≤ (i 0).val ∧ (i 0).val < win1_8.index _ (0 : Fin 2) * 4000 + 4000; rw [e0]; show (i 0).val / 4000 * 4000 ≤ (i 0).val ∧ (i 0).val < (i 0).val / 4000 * 4000 + 4000; omega
  | ⟨1, _⟩ => show win1_8.index _ (1 : Fin 2) * 1 ≤ (i 1).val ∧ (i 1).val < win1_8.index _ (1 : Fin 2) * 1 + 1; rw [e1]; omega

/-- WHAT POINT `t` WRITES BACK is block `t` of `out` of the arrays as the region finds them. -/
theorem flushed1_eq (c : Dev nD) (t : Fin cfg1.N) :
    (dat1 (F := Ideal) V c).flushed 8 t = ((cfg1.win 8).blk t).view.read (Elt Ideal)
      (out (sums1 V c) (cnt1 V c) (feat1 V c) (wl1 V c) (wr1 V c) (bias1 V c) (proj1 V c) (pbias1 V c)) := by
  show (cfg1.win 8).cut (grid1.coords t) ((dat1 (F := Ideal) V c).after 8 t) = _
  rw [after1_8]
  unfold out1_8
  rw [View.canon_unit_zero hz1]
  simp only [View.ld_unit_zero (S := S4000x64) hz1, View.ld_unit_zero (S := S4000x1) hz1, View.ld_unit_zero (S := S64x64) hz1, View.ld_unit_zero (S := S1x64) hz1, View.ld_unit_zero (S := S64x1) hz1, View.ld_unit_zero (S := S1x1) hz1]
  funext j
  obtain ⟨p, q, rfl⟩ : ∃ (p : Fin 4000) (q : Fin 1), (j : S4000x1.Idx) = ix2 p q := ⟨j 0, j 1, eq_ix2 j⟩
  have hN : cfg1.N = 25 := N_1
  have ht : t.val < 25 := hN ▸ t.isLt
  have hp : p.val < 4000 := p.isLt
  have hq : q.val = 0 := by have := q.isLt; omega
  let r : Fin 100000 := ⟨4000 * t.val + p.val, by omega⟩
  have hemb : ((cfg1.win 8).blk t).view.emb (ix2 p q) = (ix2 r q : S100000x1.Idx) := by
    funext a; apply Fin.ext
    obtain ⟨-, -, -, -, -, -, -, -, -, -, -, -, -, -, -, -, e0, e1⟩ := idx_facts1 t
    match a with
    | ⟨0, _⟩ => show win1_8.index t (0 : Fin 2) * 4000 + 1 * p.val = 4000 * t.val + p.val; rw [e0]; omega
    | ⟨1, _⟩ => show win1_8.index t (1 : Fin 2) * 1 + 1 * q.val = q.val; rw [e1]; omega
  show k1_pay1 (F := Ideal) (iblk1 V c 1 t) (iblk1 V c 0 t) (iblk1 V c 2 t) (iblk1 V c 3 t) (iblk1 V c 4 t) (iblk1 V c 5 t) (iblk1 V c 6 t) (iblk1 V c 7 t) (ix2 p q)
      = out (sums1 V c) (cnt1 V c) (feat1 V c) (wl1 V c) (wr1 V c) (bias1 V c) (proj1 V c) (pbias1 V c) (((cfg1.win 8).blk t).view.emb (ix2 p q))
  refine (body1_at (iblk1 V c 1 t) (iblk1 V c 0 t) (iblk1 V c 2 t) (iblk1 V c 3 t) (iblk1 V c 4 t) (iblk1 V c 5 t) (iblk1 V c 6 t) (iblk1 V c 7 t) p q).trans ?_
  rw [hemb, out_apply]
  unfold outAt hiddenAt
  simp only [rd_sums1 V c t p r rfl, rd_cnt1 V c t p r rfl, rd_feat1 V c t p r rfl, rd_wl1 V c t, rd_wr1 V c t, rd_bias1 V c t, rd_proj1 V c t, rd_pbias1 V c t]

/-- THE ARRAY the second region leaves: `out` of the arrays it was entered with. -/
theorem final1 (c : Dev nD) :
    (dat1 (F := Ideal) V c).arrAt 8 cfg1.N = out (sums1 V c) (cnt1 V c) (feat1 V c) (wl1 V c) (wr1 V c) (bias1 V c) (proj1 V c) (pbias1 V c) :=
  (dat1 (F := Ideal) V c).arrAt_eq_of_cover 8 _ (fun t _ => flushed1_eq V c t) cover1

end Cert.Sage

end
-- ==== Proof.RefLayers.lean ====
/-
  The reference program's stages are the layer functions.

  The reference computes each layer by a chain of whole-array operations: the neighbour sums divided by the floored
  counts (broadcast along the features), two matrix products, two additions (the second with the bias broadcast
  along the nodes) and a rectifier; the last layer is followed by a product with a one-column matrix and the addition
  of a broadcast scalar. Read entry by entry, each chain is the closed form of `hiddenAt` / `outAt`: every
  broadcast reads its operand at the index with the broadcast coordinate set to `0`, every matrix product is the
  sum over the contracted coordinate, and at the extended reals each float operation is the operation on `EReal`.
  The scatter-adds (neighbour sums and counts) are not opened: they stand on both sides as they are.
-/
import proofs.«133992_j36507222016452_1_alg».proof.Proof.Gen.ReferenceIdeal.Read
import proofs.«133992_j36507222016452_1_alg».proof.Proof.SageLayer
import Idealize.ShloMosaic.Lib.ValueIdx
import Idealize.ShloMosaic.PureOps.Ideal.Laws

noncomputable section

namespace Cert.Sage

open Idealize.ShloMosaic Idealize.ShloMosaic.ValueIdx Cert.ReferenceIdeal Cert.ReferenceIdeal.Read

/-! ## The index functions of the layout operations and matrix products, at an index given by its coordinates -/

/-- A product's left operand is read at the result's row and the contracted coordinate. -/
theorem lidx22_ix2 (r : Fin 100000) (j k : Fin 64) : lidx_main_v22 (ix2 r j) k = ix2 r k :=
  funext fun a => Fin.ext (by match a with | ⟨0, _⟩ => rfl | ⟨1, _⟩ => rfl)
/-- A product's right operand is read at the contracted coordinate and the result's column. -/
theorem ridx22_ix2 (r : Fin 100000) (j k : Fin 64) : ridx_main_v22 (ix2 r j) k = ix2 k j :=
  funext fun a => Fin.ext (by match a with | ⟨0, _⟩ => rfl | ⟨1, _⟩ => rfl)
theorem lidx23_ix2 (r : Fin 100000) (j k : Fin 64) : lidx_main_v23 (ix2 r j) k = ix2 r k :=
  funext fun a => Fin.ext (by match a with | ⟨0, _⟩ => rfl | ⟨1, _⟩ => rfl)
theorem ridx23_ix2 (r : Fin 100000) (j k : Fin 64) : ridx_main_v23 (ix2 r j) k = ix2 k j :=
  funext fun a => Fin.ext (by match a with | ⟨0, _⟩ => rfl | ⟨1, _⟩ => rfl)
/-- The floored counts are broadcast along the features: read at the row, column `0`. -/
theorem idx20_ix2 (r : Fin 100000) (k : Fin 64) : idx_main_v20 (ix2 r k) = ix2 r (0 : Fin 1) :=
  funext fun a => Fin.ext (by match a with | ⟨0, _⟩ => rfl | ⟨1, _⟩ => rfl)
/-- The bias row is broadcast along the nodes: read at row `0`, the column. -/
theorem idx26_ix2 (r : Fin 100000) (j : Fin 64) : idx_main_v26 (ix2 r j) = ix2 (0 : Fin 1) j :=
  funext fun a => Fin.ext (by match a with | ⟨0, _⟩ => rfl | ⟨1, _⟩ => rfl)

theorem lidx47_ix2 (r : Fin 100000) (j k : Fin 64) : lidx_main_v47 (ix2 r j) k = ix2 r k :=
  funext fun a => Fin.ext (by match a with | ⟨0, _⟩ => rfl | ⟨1, _⟩ => rfl)
theorem ridx47_ix2 (r : Fin 100000) (j k : Fin 64) : ridx_main_v47 (ix2 r j) k = ix2 k j :=
  funext fun a => Fin.ext (by match a with | ⟨0, _⟩ => rfl | ⟨1, _⟩ => rfl)
theorem lidx48_ix2 (r : Fin 100000) (j k : Fin 64) : lidx_main_v48 (ix2 r j) k = ix2 r k :=
  funext fun a => Fin.ext (by match a with | ⟨0, _⟩ => rfl | ⟨1, _⟩ => rfl)
theorem ridx48_ix2 (r : Fin 100000) (j k : Fin 64) : ridx_main_v48 (ix2 r j) k = ix2 k j :=
  funext fun a => Fin.ext (by match a with | ⟨0, _⟩ => rfl | ⟨1, _⟩ => rfl)
theorem idx45_ix2 (r : Fin 100000) (k : Fin 64) : idx_main_v45 (ix2 r k) = ix2 r (0 : Fin 1) :=
  funext fun a => Fin.ext (by match a with | ⟨0, _⟩ => rfl | ⟨1, _⟩ => rfl)
theorem idx51_ix2 (r : Fin 100000) (j : Fin 64) : idx_main_v51 (ix2 r j) = ix2 (0 : Fin 1) j :=
  funext fun a => Fin.ext (by match a with | ⟨0, _⟩ => rfl | ⟨1, _⟩ => rfl)
/-- The projection's left operand: the row and the contracted coordinate. -/
theorem lidx54_ix2 (r : Fin 100000) (q : Fin 1) (k : Fin 64) : lidx_main_v54 (ix2 r q) k = ix2 r k :=
  funext fun a => Fin.ext (by match a with | ⟨0, _⟩ => rfl | ⟨1, _⟩ => rfl)
/-- The projection's right operand: the contracted coordinate and the single column. -/
theorem ridx54_ix2 (r : Fin 100000) (q : Fin 1) (k : Fin 64) : ridx_main_v54 (ix2 r q) k = ix2 k q :=
  funext fun a => Fin.ext (by match a with | ⟨0, _⟩ => rfl | ⟨1, _⟩ => rfl)
/-- The last bias, a 1×1 array, is broadcast along the nodes: read at its only entry. -/
theorem idx56_ix2 (r : Fin 100000) (q : Fin 1) : idx_main_v56 (ix2 r q) = ix2 (0 : Fin 1) (0 : Fin 1) :=
  funext fun a => Fin.ext (by match a with | ⟨0, _⟩ => rfl | ⟨1, _⟩ => rfl)

/-! ## The first layer -/

/-- One term of the first product: the neighbour sum over the floored count, times the weight. -/
theorem mean_term1 (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (r : Fin 100000) (j k : Fin 64) :
    val_main_v21 (F := Ideal) x0 x1 (lidx_main_v22 (ix2 r j) k) * x2 (ridx_main_v22 (ix2 r j) k)
      = Ideal.div (val_main_v13 (F := Ideal) x0 x1 (ix2 r k))
          (max (val_main_v17 (F := Ideal) x1 (ix2 r (0 : Fin 1))) oneF) * x2 (ix2 k j) := by
  rw [lidx22_ix2, ridx22_ix2, val_main_v21_apply, val_main_v20_apply, idx20_ix2, val_main_v19_apply,
    val_main_v18_apply, val_main_cst_3_apply, Ideal.hostDivf_def, Ideal.maximumf_def, Ideal.ofBits_def]

/-- One term of the second product: the node's own feature times the weight. -/
theorem self_term1 (x0 : (⟨S100000x64, .f32⟩ : BufTy).Contents (Elt Ideal)) (x3 : (⟨S64x64, .f32⟩ : BufTy).Contents (Elt Ideal)) (r : Fin 100000) (j k : Fin 64) :
    x0 (lidx_main_v23 (ix2 r j) k) * x3 (ridx_main_v23 (ix2 r j) k) = x0 (ix2 r k) * x3 (ix2 k j) := by
  rw [lidx23_ix2, ridx23_ix2]

/-- The first layer: operation 28 (relu of operation 27) is `hidden` of the neighbour sums (operation 13), the counts
    (operation 17), the features, the two weight matrices and the bias as a row (operation 25). -/
theorem ref_hidden1 (x0 : (⟨S100000x64, .f32⟩ : BufTy).Contents (Elt Ideal)) (x1 : (⟨S2x1600000, .i32⟩ : BufTy).Contents (Elt Ideal))
    (x2 x3 : (⟨S64x64, .f32⟩ : BufTy).Contents (Elt Ideal)) (x4 : (⟨S64, .f32⟩ : BufTy).Contents (Elt Ideal)) :
    val_main_v28 (F := Ideal) x0 x1 x2 x3 x4
      = hidden (val_main_v13 (F := Ideal) x0 x1) (val_main_v17 (F := Ideal) x1) x0 x2 x3
          (val_main_v25 (F := Ideal) x4) := by
  funext i
  obtain ⟨r, j, rfl⟩ : ∃ (r : Fin 100000) (j : Fin 64), i = ix2 r j := ⟨i 0, i 1, eq_ix2 i⟩
  rw [hidden_apply]
  unfold hiddenAt
  rw [val_main_v28_apply, val_main_v27_apply, val_main_v24_apply, val_main_v22_apply, val_main_v23_apply,
    val_main_v26_apply, val_main_call0_v0_apply, val_main_call0_cst_apply, idx26_ix2,
    Finset.sum_congr rfl fun k _ => mean_term1 x0 x1 x2 r j k,
    Finset.sum_congr rfl fun k _ => self_term1 x0 x3 r j k,
    Ideal.maximumf_def, Ideal.addf_def, Ideal.addf_def, Ideal.ofBits_def]

/-! ## The second layer and the projection -/

/-- One term of the second layer's first product: the second neighbour sum over the floored count, times the
    weight. -/
theorem mean_term2 (x0 : (⟨S100000x64, .f32⟩ : BufTy).Contents (Elt Ideal)) (x1 : (⟨S2x1600000, .i32⟩ : BufTy).Contents (Elt Ideal))
    (x2 x3 : (⟨S64x64, .f32⟩ : BufTy).Contents (Elt Ideal)) (x4 : (⟨S64, .f32⟩ : BufTy).Contents (Elt Ideal)) (x5 : (⟨S64x64, .f32⟩ : BufTy).Contents (Elt Ideal)) (r : Fin 100000) (j k : Fin 64) :
    val_main_v46 (F := Ideal) x0 x1 x2 x3 x4 (lidx_main_v47 (ix2 r j) k) * x5 (ridx_main_v47 (ix2 r j) k)
      = Ideal.div (val_main_v38 (F := Ideal) x0 x1 x2 x3 x4 (ix2 r k))
          (max (val_main_v42 (F := Ideal) x1 (ix2 r (0 : Fin 1))) oneF) * x5 (ix2 k j) := by
  rw [lidx47_ix2, ridx47_ix2, val_main_v46_apply, val_main_v45_apply, idx45_ix2, val_main_v44_apply,
    val_main_v43_apply, val_main_cst_9_apply, Ideal.hostDivf_def, Ideal.maximumf_def, Ideal.ofBits_def]

/-- One term of the second layer's second product: the first layer's entry times the weight. -/
theorem self_term2 (h : S100000x64.Idx → EReal) (x6 : (⟨S64x64, .f32⟩ : BufTy).Contents (Elt Ideal)) (r : Fin 100000) (j k : Fin 64) :
    h (lidx_main_v48 (ix2 r j) k) * x6 (ridx_main_v48 (ix2 r j) k) = h (ix2 r k) * x6 (ix2 k j) := by
  rw [lidx48_ix2, ridx48_ix2]

/-- The second hidden layer, entry by entry: operation 53 (relu of operation 52) at node `r`, feature `j` is
    `hiddenAt` of the second neighbour sums (operation 38), the counts as recomputed (operation 42), the first
    layer (operation 28), the second pair of weight matrices and the second bias as a row (operation 50). -/
theorem ref_hidden2_at (x0 : (⟨S100000x64, .f32⟩ : BufTy).Contents (Elt Ideal)) (x1 : (⟨S2x1600000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal)) (r : Fin 100000) (j : Fin 64) :
    val_main_v53 (F := Ideal) x0 x1 x2 x3 x4 x5 x6 x7 (ix2 r j)
      = hiddenAt (val_main_v38 (F := Ideal) x0 x1 x2 x3 x4) (val_main_v42 (F := Ideal) x1)
          (val_main_v28 (F := Ideal) x0 x1 x2 x3 x4) x5 x6 (val_main_v50 (F := Ideal) x7) r j := by
  unfold hiddenAt
  rw [val_main_v53_apply, val_main_v52_apply, val_main_v49_apply, val_main_v47_apply, val_main_v48_apply,
    val_main_v51_apply, val_main_call1_v0_apply, val_main_call1_cst_apply, idx51_ix2,
    Finset.sum_congr rfl fun k _ => mean_term2 x0 x1 x2 x3 x4 x5 r j k,
    Finset.sum_congr rfl fun k _ => self_term2 (val_main_v28 (F := Ideal) x0 x1 x2 x3 x4) x6 r j k,
    Ideal.maximumf_def, Ideal.addf_def, Ideal.addf_def, Ideal.ofBits_def]

/-- One term of the projection: the second layer's entry times the projection column's. -/
theorem proj_term (x0 : (⟨S100000x64, .f32⟩ : BufTy).Contents (Elt Ideal)) (x1 : (⟨S2x1600000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal)) (x8 : (⟨S64x1, .f32⟩ : BufTy).Contents (Elt Ideal)) (r : Fin 100000) (k : Fin 64) :
    val_main_v53 (F := Ideal) x0 x1 x2 x3 x4 x5 x6 x7 (lidx_main_v54 (ix2 r (0 : Fin 1)) k)
        * x8 (ridx_main_v54 (ix2 r (0 : Fin 1)) k)
      = hiddenAt (val_main_v38 (F := Ideal) x0 x1 x2 x3 x4) (val_main_v42 (F := Ideal) x1)
          (val_main_v28 (F := Ideal) x0 x1 x2 x3 x4) x5 x6 (val_main_v50 (F := Ideal) x7) r k
        * x8 (ix2 k (0 : Fin 1)) := by
  rw [lidx54_ix2, ridx54_ix2, ref_hidden2_at]

/-- The second layer and the projection: operation 57 is `out` of the second neighbour sums (operation 38), the
    counts as the reference recomputes them (operation 42), the first layer (operation 28), the second pair of
    weight matrices, the second bias as a row (operation 50), the projection column, and the last bias as a 1×1
    array (operation 55). -/
theorem ref_out (x0 : (⟨S100000x64, .f32⟩ : BufTy).Contents (Elt Ideal)) (x1 : (⟨S2x1600000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 : (⟨S64x1, .f32⟩ : BufTy).Contents (Elt Ideal)) (x9 : (⟨S1, .f32⟩ : BufTy).Contents (Elt Ideal)) :
    val_main_v57 (F := Ideal) x0 x1 x2 x3 x4 x5 x6 x7 x8 x9
      = out (val_main_v38 (F := Ideal) x0 x1 x2 x3 x4) (val_main_v42 (F := Ideal) x1)
          (val_main_v28 (F := Ideal) x0 x1 x2 x3 x4) x5 x6 (val_main_v50 (F := Ideal) x7) x8
          (val_main_v55 (F := Ideal) x9) := by
  funext i
  obtain ⟨r, q, rfl⟩ : ∃ (r : Fin 100000) (q : Fin 1), i = ix2 r q := ⟨i 0, i 1, eq_ix2 i⟩
  obtain rfl : q = 0 := Subsingleton.elim _ _
  rw [out_apply]
  unfold outAt
  rw [val_main_v57_apply, val_main_v54_apply, val_main_v56_apply, idx56_ix2,
    Finset.sum_congr rfl fun k _ => proj_term x0 x1 x2 x3 x4 x5 x6 x7 x8 r k, Ideal.addf_def]

end Cert.Sage

end
-- ==== Proof.Bridge.lean ====
/-
  The kernel's program computes the reference's result.

  The first call leaves `hidden` of the arrays it was entered with; those are the reference's neighbour sums, counts,
  features, weights and bias row, and `hidden` of them is the reference's first layer. The host's gather and
  scatter-add of that array are then the reference's second neighbour sums; the second call leaves `out` of them, of
  the same counts and of the first layer, which is the reference's last stage before its reshape; and the final
  reshape is the reference's own.
-/
import proofs.«133992_j36507222016452_1_alg».proof.Proof.HostChain
import proofs.«133992_j36507222016452_1_alg».proof.Proof.Region0
import proofs.«133992_j36507222016452_1_alg».proof.Proof.Region1
import proofs.«133992_j36507222016452_1_alg».proof.Proof.RefLayers

set_option maxRecDepth 16384

noncomputable section

open Idealize.ShloMosaic Idealize.ShloMosaic.TcCoe Idealize.SL.Sem Idealize.ShloMosaic.StableHlo

namespace Cert.Sage

open Cert.KernelIdeal Cert.KernelIdeal.Gen

variable (m : (ℓ : Loc nD τ sig) → Buf (Elt Ideal) ℓ) (ρ : Dev nD → PrngReg)

/-! ## The first region's result is the reference's first layer -/

theorem mid_h1 (c : Dev nD) :
    W2 (F := Ideal) m ρ c (Proc.devRef .tc main_v19) = Cert.ReferenceIdeal.Read.val_main_v28 (F := Ideal) (x0 m c) (x1 m c) (x2 m c) (x3 m c) (x4 m c) := by
  refine (W2_arr m ρ c 6).trans ?_
  rw [final0 (V1 m ρ) c]
  show hidden (V1 (F := Ideal) m ρ c main_v17) (V1 (F := Ideal) m ρ c main_v7) (V1 (F := Ideal) m ρ c main_arg0)
      (V1 (F := Ideal) m ρ c main_arg2) (V1 (F := Ideal) m ρ c main_arg3) (V1 (F := Ideal) m ρ c main_v18) = _
  rw [entry0_sums m ρ c, entry0_cnt m ρ c, entry0_feat m ρ c, entry0_wl m ρ c, entry0_wr m ρ c, entry0_bias m ρ c]
  exact (ref_hidden1 _ _ _ _ _).symm

/-- The second layer's neighbour sums are the reference's: its gather and scatter-add of its own first layer. -/
theorem entry1_sums' (c : Dev nD) :
    V3 (F := Ideal) m ρ c main_v29 = Cert.ReferenceIdeal.Read.val_main_v38 (F := Ideal) (x0 m c) (x1 m c) (x2 m c) (x3 m c) (x4 m c) := by
  refine (entry1_sums m ρ c _ (mid_h1 m ρ c)).trans ?_
  unfold Cert.ReferenceIdeal.Read.val_main_v38 Cert.ReferenceIdeal.Read.val_main_v35
  rfl

/-! ## The second region's result is the reference's last stage before its reshape -/

theorem exit1 (c : Dev nD) :
    W4 (F := Ideal) m ρ c (Proc.devRef .tc main_v32) = Cert.ReferenceIdeal.Read.val_main_v57 (F := Ideal) (x0 m c) (x1 m c) (x2 m c) (x3 m c) (x4 m c) (x5 m c) (x6 m c) (x7 m c) (x8 m c) (x9 m c) := by
  refine (W4_arr m ρ c 8).trans ?_
  rw [final1 (V3 m ρ) c]
  show out (V3 (F := Ideal) m ρ c main_v29) (V3 (F := Ideal) m ρ c main_v7) (V3 (F := Ideal) m ρ c main_v19)
      (V3 (F := Ideal) m ρ c main_arg5) (V3 (F := Ideal) m ρ c main_arg6) (V3 (F := Ideal) m ρ c main_v30)
      (V3 (F := Ideal) m ρ c main_arg8) (V3 (F := Ideal) m ρ c main_v31) = _
  rw [entry1_sums' m ρ c, entry1_cnt m ρ c, entry1_feat m ρ c, mid_h1 m ρ c, entry1_wl m ρ c, entry1_wr m ρ c,
    entry1_bias m ρ c, entry1_proj m ρ c, entry1_pbias m ρ c]
  exact (ref_out _ _ _ _ _ _ _ _ _ _).symm

/-- THE RESULT the kernel's program ends with: the reference's result stage of the launch arguments. -/
theorem kernel_result (c : Dev nD) :
    W5 (F := Ideal) m ρ c (Proc.devRef .tc main_v33) = Cert.ReferenceIdeal.Read.val_main_v58 (F := Ideal) (x0 m c) (x1 m c) (x2 m c) (x3 m c) (x4 m c) (x5 m c) (x6 m c) (x7 m c) (x8 m c) (x9 m c) := by
  rw [result_eq m ρ c, exit1 m ρ c]
  unfold Cert.ReferenceIdeal.Read.val_main_v58
  rfl

end Cert.Sage

end
-- ==== Proof.lean ====
/-
  The proof of `Cert.Claim`: two GraphSAGE layers with mean aggregation and a final projection, computed by two
  pallas_calls between the host's gathers and scatter-adds, against the same network written with whole-array
  operations.

  Read at the extended reals, where a change of float format is the identity and a matrix product is the plain sum of
  products, each pallas_call leaves one whole-array function of the arrays it was entered with (`hidden`, `out`:
  Proof/SageLayer.lean, Proof/BodyAt.lean, Proof/Region0.lean, Proof/Region1.lean); the reference's stages are the same
  functions (Proof/RefLayers.lean); the host operations around the calls are the reference's own, applied to the same
  arguments (Proof/HostChain.lean); so the two programs end with one and the same array (Proof/Bridge.lean). The run of
  the kernel's program with its result buffer named is Proof/KernelRun.lean. The three frames are the generated ones
  (the reference's is its generated run with the result dropped), and the idealization rewrote nothing.
-/
import proofs.«133992_j36507222016452_1_alg».proof.Defs
import proofs.«133992_j36507222016452_1_alg».proof.Proof.Gen.Kernel
import proofs.«133992_j36507222016452_1_alg».proof.Proof.Gen.Kernel.Skeleton
import proofs.«133992_j36507222016452_1_alg».proof.Proof.Gen.Kernel.Launch
import proofs.«133992_j36507222016452_1_alg».proof.Proof.Gen.Kernel.Points
import proofs.«133992_j36507222016452_1_alg».proof.Proof.Gen.Kernel.Frame
import proofs.«133992_j36507222016452_1_alg».proof.Proof.Gen.KernelIdeal
import proofs.«133992_j36507222016452_1_alg».proof.Proof.Gen.KernelIdeal.Skeleton
import proofs.«133992_j36507222016452_1_alg».proof.Proof.Gen.KernelIdeal.Launch
import proofs.«133992_j36507222016452_1_alg».proof.Proof.Gen.KernelIdeal.Points
import proofs.«133992_j36507222016452_1_alg».proof.Proof.Gen.KernelIdeal.Frame
import proofs.«133992_j36507222016452_1_alg».proof.Proof.Gen.ReferenceIdeal
import proofs.«133992_j36507222016452_1_alg».proof.Proof.Gen.ReferenceIdeal.Run
import proofs.«133992_j36507222016452_1_alg».proof.Proof.Gen.ReferenceIdeal.Read
import proofs.«133992_j36507222016452_1_alg».proof.Proof.Gen.Pre_finite_inputs
import proofs.«133992_j36507222016452_1_alg».proof.Proof.KernelRun
import proofs.«133992_j36507222016452_1_alg».proof.Proof.Bridge
import Idealize.ShloMosaic.Adequacy
import Idealize.ShloMosaic.Init

noncomputable section

namespace Cert.Proof.SageClaims

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to restate. -/
theorem preserves : Cert.preserves_Kernel_KernelIdeal := trivial

/-- Both programs end with the reference's result stage of the launch arguments: the kernel's program by the two
    regions read as whole-array functions between the host's gathers and scatter-adds, the reference by its own run;
    the arguments agree, so the two results are one array. No input need be finite for this: the two sides are the
    same operations in the same order, and only the tiling and the float formats differ. -/
theorem algebraic : Cert.algebraic_KernelIdeal_ReferenceIdeal := by
  intro m ρ m' ρ' _ hagree
  refine ⟨fun c => Cert.ReferenceIdeal.Read.val_main_v58 (F := Ideal) (Cert.Sage.x0 m c) (Cert.Sage.x1 m c) (Cert.Sage.x2 m c) (Cert.Sage.x3 m c) (Cert.Sage.x4 m c) (Cert.Sage.x5 m c) (Cert.Sage.x6 m c) (Cert.Sage.x7 m c) (Cert.Sage.x8 m c) (Cert.Sage.x9 m c), ?_, ?_⟩
  · exact (θ_run Cert.KernelIdeal.defs _ _).mono
      (fun r h c => ⟨(h c).1.trans (Cert.Sage.kernel_result m ρ c), (h c).2⟩)
      (Cert.KernelIdeal.RunResult.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v58_eq]
    obtain ⟨h0, h1, h2, h3, h4, h5, h6, h7, h8, h9⟩ := hagree c
    rw [h0, h1, h2, h3, h4, h5, h6, h7, h8, h9]

end Cert.Proof.SageClaims

namespace Cert.Proof

theorem claim : Cert.Claim :=
  ⟨Cert.Kernel.Gen.facts, Cert.KernelIdeal.Gen.facts, Cert.ReferenceIdeal.Gen.facts, Cert.Pre_finite_inputs.Gen.facts,
    SageClaims.frame_k, SageClaims.frame_ki, SageClaims.frame_ri, SageClaims.preserves, SageClaims.algebraic⟩

end Cert.Proof

end
